-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x8 : Shape := ⟨2, ![128, 8]⟩
abbrev S8 : Shape := ⟨1, ![8]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg6 : FVec F S8 .f32) (main_v13 : IVec S_ 1) (main_v16 : IVec S128x8 1) : IVec S_ 1 :=
  let main_c_5 : IVec S_ 1 := constantI S_ 1 1#1
  let main_v17 : IVec S_ 1 := (fun x v => Host.reduce IntOp.andi x v reducesTo_S128x8_S_d0_1 h_S_) main_v16 main_c_5
  let main_v18 : IVec S_ 1 := andi main_v13 main_v17
  let main_v19 : FVec F S8 .f32 := Host.absf main_arg6
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  main_v23

def fn {F : FTy → Type} [FloatOps F] (main_arg0 : FVec F S100000x256 .f32) (main_arg1 : IVec S1600000 32) (main_arg2 : IVec S1600000 32) (main_arg3 : FVec F S256x128 .f32) (main_arg4 : FVec F S128 .f32) (main_arg5 : FVec F S128x8 .f32) (main_arg6 : FVec F S8 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x8 .f32 := Host.absf main_arg5
  let main_cst_4 : FVec F S_ .f32 := constant S_ .f32 0x7F800000#32
  let main_v15 : FVec F S128x8 .f32 := broadcastInDim S128x8 ![] bcast_S_S128x8 main_cst_4
  let main_v16 : IVec S128x8 1 := cmpf .olt main_v14 main_v15
  fn_part1 (F := F) main_arg6 main_v13 main_v16
-- ==== Kernel.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x8 : Shape := ⟨2, ![128, 8]⟩
abbrev S8 : Shape := ⟨1, ![8]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S5000x256 : Shape := ⟨2, ![5000, 256]⟩
abbrev S5000x1 : Shape := ⟨2, ![5000, 1]⟩
abbrev S5000x128 : Shape := ⟨2, ![5000, 128]⟩
abbrev S1600000x128 : Shape := ⟨2, ![1600000, 128]⟩
abbrev S1x128 : Shape := ⟨2, ![1, 128]⟩
abbrev S1x8 : Shape := ⟨2, ![1, 8]⟩
abbrev S100000x8 : Shape := ⟨2, ![100000, 8]⟩
abbrev S5000x8 : Shape := ⟨2, ![5000, 8]⟩

abbrev nBuf : Space → Nat
  | .hbm => 58
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S128x8, .f32⟩
  | .hbm, ⟨6, _⟩ => ⟨S8, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x1, .f32⟩
  | .hbm, ⟨40, _⟩ => ⟨S100000x128, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000x128, .f32⟩
  | .hbm, ⟨50, _⟩ => ⟨S_, .f32⟩
  | .hbm, ⟨51, _⟩ => ⟨S100000x128, .f32⟩
  | .hbm, ⟨52, _⟩ => ⟨S1600000x1, .i32⟩
  | .hbm, ⟨53, _⟩ => ⟨S100000x128, .f32⟩
  | .hbm, ⟨54, _⟩ => ⟨S100000x1, .f32⟩
  | .hbm, ⟨55, _⟩ => ⟨S1x128, .f32⟩
  | .hbm, ⟨56, _⟩ => ⟨S1x8, .f32⟩
  | .hbm, ⟨57, _⟩ => ⟨S100000x8, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x8, .f32⟩
  | .local _ .vmem, ⟨13, _⟩ => ⟨S1x8, .f32⟩
  | .local _ .vmem, ⟨14, _⟩ => ⟨S5000x8, .f32⟩
  | .local _ .vmem, ⟨15, _⟩ => ⟨S5000x8, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c : Ref sig .tc := ⟨.hbm, 41, rfl⟩
abbrev main_v21 : Ref sig .tc := ⟨.hbm, 42, rfl⟩
abbrev main_v22 : Ref sig .tc := ⟨.hbm, 43, rfl⟩
abbrev main_c_8 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_9 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x8 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x8 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x8 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  shapeCasts_S128_S1x128 : S128.ShapeCasts S1x128
  shapeCasts_S8_S1x8 : S8.ShapeCasts S1x8
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x8_S128x8_0_0 : ∀ a, (![0, 0] : Fin 2 → Nat) a + S128x8.size a ≤ S128x8.size a
  h_S128x8 : 0 < S128x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S5000x8 : S1x8.Broadcasts S5000x8
  inb_S5000x8_S5000x8_0_0 : ∀ a, (![0, 0] : Fin 2 → Nat) a + S5000x8.size a ≤ S5000x8.size a
  h_S5000x8 : 0 < S5000x8.numel
  scatter_S100000_S1600000x1_S1600000_n_0_0_1_wf : ScatterDims.WF S100000 S1600000x1 S1600000 [] [0] [0] 1
  dot_S5000x256_S256x128_S5000x128_1_0_0_1_n_n_wf : DotDims.WF S5000x256 S256x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x8_S5000x8_1_0_0_1_n_n_wf : DotDims.WF S5000x128 S128x8 S5000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x8.size a ≤ S128x8.size a
  hwx1_3 : ∀ i : grid1.Coords, EltTy.bits .f32 = 32 ∨ (Rect.block (s := S128x8) S128x8.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x8.size a ≤ S1x8.size a
  hwx1_4 : ∀ i : grid1.Coords, EltTy.bits .f32 = 32 ∨ (Rect.block (s := S1x8) S1x8.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x8.size a ≤ S100000x8.size a
  hwx1_5 : ∀ i : grid1.Coords, EltTy.bits .f32 = 32 ∨ (Rect.block (s := S100000x8) S5000x8.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x8_S5000x8_1_0_0_1_n_n : DotDims S5000x128 S128x8 S5000x8 where
  lhsContracting := [1]
  rhsContracting := [0]
  lhsNonContracting := [0]
  rhsNonContracting := [1]
  lhsBatch := []
  rhsBatch := []
  wf := dot_S5000x128_S128x8_S5000x8_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v30) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x8.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x8.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S5000x8.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x256 : Shape := ⟨2, ![100000, 256]⟩
abbrev S1600000 : Shape := ⟨1, ![1600000]⟩
abbrev S256x128 : Shape := ⟨2, ![256, 128]⟩
abbrev S128 : Shape := ⟨1, ![128]⟩
abbrev S128x8 : Shape := ⟨2, ![128, 8]⟩
abbrev S8 : Shape := ⟨1, ![8]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S100000x1 : Shape := ⟨2, ![100000, 1]⟩
abbrev S1600000x128 : Shape := ⟨2, ![1600000, 128]⟩
abbrev S1x128 : Shape := ⟨2, ![1, 128]⟩
abbrev S100000x8 : Shape := ⟨2, ![100000, 8]⟩
abbrev S1x8 : Shape := ⟨2, ![1, 8]⟩

abbrev nBuf : Space → Nat
  | .hbm => 69
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S1600000, .i32⟩
  | .hbm, ⟨2, _⟩ => ⟨S1600000, .i32⟩
  | .hbm, ⟨3, _⟩ => ⟨S256x128, .f32⟩
  | .hbm, ⟨4, _⟩ => ⟨S128, .f32⟩
  | .hbm, ⟨5, _⟩ => ⟨S128x8, .f32⟩
  | .hbm, ⟨6, _⟩ => ⟨S8, .f32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .i1⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S100000x128, .f32⟩
  | .hbm, ⟨40, _⟩ => ⟨S100000x1, .f32⟩
  | .hbm, ⟨41, _⟩ => ⟨S100000x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S_, .f32⟩
  | .hbm, ⟨53, _⟩ => ⟨S100000x128, .f32⟩
  | .hbm, ⟨54, _⟩ => ⟨S1600000x1, .i32⟩
  | .hbm, ⟨55, _⟩ => ⟨S100000x128, .f32⟩
  | .hbm, ⟨56, _⟩ => ⟨S100000x1, .f32⟩
  | .hbm, ⟨57, _⟩ => ⟨S100000x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S_, .f32⟩
  | .hbm, ⟨63, _⟩ => ⟨S100000x128, .f32⟩
  | .hbm, ⟨64, _⟩ => ⟨S100000x128, .f32⟩
  | .hbm, ⟨65, _⟩ => ⟨S100000x8, .f32⟩
  | .hbm, ⟨66, _⟩ => ⟨S1x8, .f32⟩
  | .hbm, ⟨67, _⟩ => ⟨S100000x8, .f32⟩
  | .hbm, ⟨68, _⟩ => ⟨S100000x8, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c : Ref sig .tc := ⟨.hbm, 43, rfl⟩
abbrev main_v23 : Ref sig .tc := ⟨.hbm, 44, rfl⟩
abbrev main_v24 : Ref sig .tc := ⟨.hbm, 45, rfl⟩
abbrev main_c_8 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_9 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call2_cst : Ref sig .tc := ⟨.hbm, 62, rfl⟩
abbrev main_call2_v0 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  scatter_S100000_S1600000x1_S1600000_n_0_0_1_wf : ScatterDims.WF S100000 S1600000x1 S1600000 [] [0] [0] 1
  dot_S100000x256_S256x128_S100000x128_1_0_0_1_n_n_wf : DotDims.WF S100000x256 S256x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x8_S100000x8_1_0_0_1_n_n_wf : DotDims.WF S100000x128 S128x8 S100000x8 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x8_S100000x8_1_0_0_1_n_n : DotDims S100000x128 S128x8 S100000x8 where
  lhsContracting := [1]
  rhsContracting := [0]
  lhsNonContracting := [0]
  rhsNonContracting := [1]
  lhsBatch := []
  rhsBatch := []
  wf := dot_S100000x128_S128x8_S100000x8_1_0_0_1_n_n_wf

class Facts : Prop extends Facts₀ where

variable [Facts]
-- ==== Proof.HostChain.lean ====
/-
  The host side the two programs share, as functions of their operands.

  `degree idx` counts, for every node, the edges whose endpoint list `idx` names it (a scatter-add of ones into zeros);
  `norm idx` is `1 / sqrt (max degree 1)` where the degree is positive and `0` elsewhere; `aggregate h src dst` gathers the
  rows of `h` at the source nodes (a negative index counted from the end) and scatter-adds them at the destination
  nodes; `out` is the reference's whole result over these: the projection scaled by the source normalisation,
  aggregated, scaled by the destination normalisation, biased, rectified, projected again and biased.
-/
import proofs.«161414_j37151467111211_1_alg».proof.ReferenceIdeal

noncomputable section

namespace Cert.ReferenceIdeal.Chain

open Cert.ReferenceIdeal Idealize.ShloMosaic

variable {F : FTy → Type} [FloatOps F] [Facts]
open Facts₀ Facts

/-- The number of edges naming each node in `idx`. -/
def degree (idx : (⟨S1600000, .i32⟩ : BufTy).Contents (Elt F)) : (⟨S100000, .f32⟩ : BufTy).Contents (Elt F) :=
  Host.scatterAdd scatter_S100000_S1600000x1_S1600000_n_0_0_1
    (broadcastInDim S100000 ![] bcast_S_S100000 (constant S_ .f32 0x00000000#32))
    (broadcastInDim S1600000x1 ![0] bcast_S1600000_S1600000x1_0 idx)
    (broadcastInDim S1600000 ![] bcast_S_S1600000 (constant S_ .f32 0x3F800000#32))

/-- The symmetric normalisation of a degree: its inverse square root where positive, zero elsewhere. -/
def norm (idx : (⟨S1600000, .i32⟩ : BufTy).Contents (Elt F)) : (⟨S100000, .f32⟩ : BufTy).Contents (Elt F) :=
  select (cmpf (F := F) .ogt (degree idx) (broadcastInDim S100000 ![] bcast_S_S100000 (constant S_ .f32 0x00000000#32)))
    (Host.rsqrt (maximumf (degree idx) (broadcastInDim S100000 ![] bcast_S_S100000 (constant S_ .f32 0x3F800000#32))))
    (broadcastInDim S100000 ![] bcast_S_S100000 (id (constant S_ .f32 0x00000000#32)))

/-- The rows of `h` at the edges' sources, summed at the edges' destinations. -/
def aggregate (h : (⟨S100000x128, .f32⟩ : BufTy).Contents (Elt F)) (src dst : (⟨S1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The reference's result as one function of its seven arguments. -/
def out (x : (⟨S100000x256, .f32⟩ : BufTy).Contents (Elt F)) (src dst : (⟨S1600000, .i32⟩ : BufTy).Contents (Elt F))
    (w1 : (⟨S256x128, .f32⟩ : BufTy).Contents (Elt F)) (b1 : (⟨S128, .f32⟩ : BufTy).Contents (Elt F))
    (w2 : (⟨S128x8, .f32⟩ : BufTy).Contents (Elt F)) (b2 : (⟨S8, .f32⟩ : BufTy).Contents (Elt F)) :
    (⟨S100000x8, .f32⟩ : BufTy).Contents (Elt F) :=
  addf (Host.dotGeneral dot_S100000x128_S128x8_S100000x8_1_0_0_1_n_n none
      (maximumf
        (addf
          (mulf
            (aggregate
              (mulf (Host.dotGeneral dot_S100000x256_S256x128_S100000x128_1_0_0_1_n_n none x w1)
                (broadcastInDim S100000x128 ![0, 1] bcast_S100000x1_S100000x128_0_1 (broadcastInDim S100000x1 ![0] bcast_S100000_S100000x1_0 (norm src))))
              src dst)
            (broadcastInDim S100000x128 ![0, 1] bcast_S100000x1_S100000x128_0_1 (broadcastInDim S100000x1 ![0] bcast_S100000_S100000x1_0 (norm dst))))
          (broadcastInDim S100000x128 ![0, 1] bcast_S1x128_S100000x128_0_1 (broadcastInDim S1x128 ![1] bcast_S128_S1x128_1 b1)))
        (broadcastInDim S100000x128 ![] bcast_S_S100000x128 (constant S_ .f32 0x00000000#32)))
      w2)
    (broadcastInDim S100000x8 ![0, 1] bcast_S1x8_S100000x8_0_1 (broadcastInDim S1x8 ![1] bcast_S8_S1x8_1 b2))

end Cert.ReferenceIdeal.Chain

end
-- ==== Proof.Spec.lean ====
/-
  The two dense layers of the graph convolution as functions of whole arrays, index by index, on the extended reals.

  `proj x w s` is the first layer before aggregation: row `r`, column `c` is the product `(x w)(r, c) = ∑ k, x (r, k) w (k, c)`
  scaled by the row's source normalisation `s (r, 0)` (a column vector). `post a s b1 w b2` is everything after the
  aggregation `a`: the row's destination normalisation, the hidden bias, the rectifier `max · 0`, the second product and
  the output bias: `∑ k, max (a (r, k) s (r, 0) + b1 (0, k)) 0 · w (k, c) + b2 (0, c)`. Both programs compute these two
  functions (the kernel block of rows by block of rows, the reference on whole arrays) around one shared aggregation.
-/
import Idealize.ShloMosaic.PureOps.Ideal
import Idealize.ShloMosaic.Lib.ValueIdx

noncomputable section

open scoped BigOperators

namespace Cert.Gcn

open Idealize.ShloMosaic Idealize.ShloMosaic.ValueIdx

/-- The projected features scaled by the source normalisation: `(x w)(r, c) · s (r, 0)`. -/
def proj (x : (⟨2, ![100000, 256]⟩ : Shape).Idx → EReal) (w : (⟨2, ![256, 128]⟩ : Shape).Idx → EReal)
    (s : (⟨2, ![100000, 1]⟩ : Shape).Idx → EReal) : (⟨2, ![100000, 128]⟩ : Shape).Idx → EReal :=
  fun i => (∑ k : Fin 256, x (ix2 (i 0) k) * w (ix2 k (i 1))) * s (ix2 (i 0) (0 : Fin 1))

/-- The hidden activation of row `r`, feature `k`: `max (a (r, k) · s (r, 0) + b (0, k)) 0`. -/
def hidden (a : (⟨2, ![100000, 128]⟩ : Shape).Idx → EReal) (s : (⟨2, ![100000, 1]⟩ : Shape).Idx → EReal)
    (b : (⟨2, ![1, 128]⟩ : Shape).Idx → EReal) (r : Fin 100000) (k : Fin 128) : EReal :=
  max (a (ix2 r k) * s (ix2 r (0 : Fin 1)) + b (ix2 (0 : Fin 1) k)) (Ideal.ofBits .f32 0x00000000#32)

/-- The output layer: `∑ k, hidden (r, k) · w (k, c) + b2 (0, c)`. -/
def post (a : (⟨2, ![100000, 128]⟩ : Shape).Idx → EReal) (s : (⟨2, ![100000, 1]⟩ : Shape).Idx → EReal)
    (b1 : (⟨2, ![1, 128]⟩ : Shape).Idx → EReal) (w : (⟨2, ![128, 8]⟩ : Shape).Idx → EReal)
    (b2 : (⟨2, ![1, 8]⟩ : Shape).Idx → EReal) : (⟨2, ![100000, 8]⟩ : Shape).Idx → EReal :=
  fun i => (∑ k : Fin 128, hidden a s b1 (i 0) k * w (ix2 k (i 1))) + b2 (ix2 (0 : Fin 1) (i 1))

end Cert.Gcn

end
-- ==== Proof.LibContraction.lean ====
/-
  A contraction over ONE axis, with no batch axis and one free axis on each operand, read by coordinates.

  For dimension numbers `d` whose contracting lists are the singletons `[cl]` and `[cr]`, the contraction's index set
  is in bijection with `Fin n`, `n` the extent of the contracted axis (`contrFin`), so a sum over it is a sum over `Fin n`
  (`sum_contr`). At the contraction position that `i : Fin n` names, the left operand's index has `i` on its contracted
  axis and the result's first coordinate on its free axis; the right operand's has `i` on its contracted axis and the
  result's second coordinate on its free axis. Each of the four facts is stated of the coordinate's VALUE (a natural
  number), so that a proof at literal shapes finishes with `Fin.ext`.
-/
import Idealize.ShloMosaic.PureOps.Ideal.Laws
import Idealize.ShloMosaic.Lib.ValueIdx

noncomputable section

open scoped BigOperators

namespace Cert.Lib.Contraction

open Idealize.ShloMosaic Idealize.ShloMosaic.ValueIdx

variable {sl sr so : Shape} (d : DotDims sl sr so)

/-- One contracted axis: the contraction's shape has rank one. -/
theorem contr_rank {cl : Fin sl.rank} (hc : d.lhsContracting = [cl]) : d.contr.rank = 1 :=
  d.rank_contr.trans (by rw [hc]; rfl)

/-- Its one extent is the contracted axis's. -/
theorem contr_size {cl : Fin sl.rank} (hc : d.lhsContracting = [cl]) (n : Nat) (hn : sl.size cl = n) :
    d.contr.size ⟨0, by rw [contr_rank d hc]; exact Nat.one_pos⟩ = n := by
  have h := d.size_contr 0 (by rw [hc]; exact Nat.one_pos)
  rw [← hn]
  refine h.trans ?_
  simp [hc]

/-- The contraction's positions are the numbers below the contracted extent. -/
def contrFin {cl : Fin sl.rank} (hc : d.lhsContracting = [cl]) (n : Nat) (hn : sl.size cl = n) : d.contr.Idx ≃ Fin n :=
  contrEquiv1 d n (contr_rank d hc) (contr_size d hc n hn)

/-- A sum over the contraction's positions is the sum over those numbers. -/
theorem sum_contr {M : Type*} [AddCommMonoid M] {cl : Fin sl.rank} (hc : d.lhsContracting = [cl]) (n : Nat)
    (hn : sl.size cl = n) (f : d.contr.Idx → M) :
    ∑ k, f k = ∑ i : Fin n, f ((contrFin d hc n hn).symm i) :=
  (Equiv.sum_comp (contrFin d hc n hn).symm f).symm

/-- On its contracted axis the left operand's index is the position. -/
theorem lhs_contracted {cl : Fin sl.rank} (hc : d.lhsContracting = [cl]) (n : Nat) (hn : sl.size cl = n)
    (j : so.Idx) (i : Fin n) : (d.lhsIdx j ((contrFin d hc n hn).symm i) cl).val = i.val :=
  (d.lhsIdx_val_of_single hc j _).trans (contrEquiv1_symm_val d n (contr_rank d hc) (contr_size d hc n hn) i)

/-- On its contracted axis the right operand's index is the position. -/
theorem rhs_contracted {cl : Fin sl.rank} {cr : Fin sr.rank} (hc : d.lhsContracting = [cl]) (hc' : d.rhsContracting = [cr])
    (n : Nat) (hn : sl.size cl = n) (j : so.Idx) (i : Fin n) :
    (d.rhsIdx j ((contrFin d hc n hn).symm i) cr).val = i.val :=
  (d.rhsIdx_val_of_single hc' j _).trans (contrEquiv1_symm_val d n (contr_rank d hc) (contr_size d hc n hn) i)

/-- With no batch axis, the left operand's one free axis reads the result's first coordinate, at every position. -/
theorem lhs_free {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one free axis on the left, the right operand's one free axis reads the result's second
    coordinate, at every position. -/
theorem rhs_free {nl : Fin sl.rank} {nr : Fin sr.rank} (hb : d.lhsBatch = []) (hb' : d.rhsBatch = [])
    (hn : d.lhsNonContracting = [nl]) (hn' : d.rhsNonContracting = [nr]) (j : so.Idx) (k : d.contr.Idx)
    (h1 : 1 < so.rank) : (d.rhsIdx j k nr).val = (j ⟨1, h1⟩).val := by
  have hnb : nr ∉ d.rhsBatch := by rw [hb']; exact List.not_mem_nil
  have hmem : nr ∈ d.rhsNonContracting := by rw [hn']; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn, hn'])

end Cert.Lib.Contraction

end
-- ==== Proof.LibPlainContraction.lean ====
/-
  A plain matrix product read by coordinates.

  For dimension numbers `d` between an `M × K` and a `K × N` operand with result `M × N` — the left operand's axis 1
  contracted against the right operand's axis 0, no batch axis — the contraction at result index `j = (r, c)` runs over
  the `K` positions `i`, the left factor read at `(r, i)` and the right factor at `(i, c)`. So every product of this
  form, whatever its extents, is the textbook sum `∑ i, a (r, i) * b (i, c)`: two products over differently sized row
  ranges agree row by row as soon as their operands do.
-/
import proofs.«161414_j37151467111211_1_alg».proof.Proof.LibContraction

noncomputable section

open scoped BigOperators

namespace Cert.Lib.PlainContraction

open Idealize.ShloMosaic Idealize.ShloMosaic.ValueIdx Cert.Lib.Contraction

variable {M K N : Nat} (d : DotDims ⟨2, ![M, K]⟩ ⟨2, ![K, N]⟩ ⟨2, ![M, N]⟩)

/-- At the position `i` of the contracted extent the left operand is read at row `j 0`, column `i`. -/
theorem lhsIdx_eq (hlc : d.lhsContracting = [1]) (hln : d.lhsNonContracting = [0]) (hlb : d.lhsBatch = [])
    (j : (⟨2, ![M, N]⟩ : Shape).Idx) (i : Fin K) :
    d.lhsIdx j ((contrFin d hlc K rfl).symm i) = ix2 (j 0) i := by
  funext a
  apply Fin.ext
  match a with
  | ⟨0, _⟩ => exact lhs_free d hlb hln j _ Nat.zero_lt_two
  | ⟨1, _⟩ => exact lhs_contracted d hlc K rfl j i

/-- At the position `i` of the contracted extent the right operand is read at row `i`, column `j 1`. -/
theorem rhsIdx_eq (hlc : d.lhsContracting = [1]) (hrc : d.rhsContracting = [0]) (hln : d.lhsNonContracting = [0])
    (hrn : d.rhsNonContracting = [1]) (hlb : d.lhsBatch = []) (hrb : d.rhsBatch = [])
    (j : (⟨2, ![M, N]⟩ : Shape).Idx) (i : Fin K) :
    d.rhsIdx j ((contrFin d hlc K rfl).symm i) = ix2 i (j 1) := by
  funext a
  apply Fin.ext
  match a with
  | ⟨0, _⟩ => exact rhs_contracted d hlc hrc K rfl j i
  | ⟨1, _⟩ => exact rhs_free d hlb hrb hln hrn j _ Nat.one_lt_two

/-- The contraction's sum of products is the sum over the `K` positions of row entry times column entry. -/
theorem sum_rows_cols {R : Type*} [AddCommMonoid R] [Mul R]
    (hlc : d.lhsContracting = [1]) (hrc : d.rhsContracting = [0]) (hln : d.lhsNonContracting = [0])
    (hrn : d.rhsNonContracting = [1]) (hlb : d.lhsBatch = []) (hrb : d.rhsBatch = [])
    (a : (⟨2, ![M, K]⟩ : Shape).Idx → R) (b : (⟨2, ![K, N]⟩ : Shape).Idx → R) (j : (⟨2, ![M, N]⟩ : Shape).Idx) :
    ∑ k : d.contr.Idx, a (d.lhsIdx j k) * b (d.rhsIdx j k) = ∑ i : Fin K, a (ix2 (j 0) i) * b (ix2 i (j 1)) := by
  rw [sum_contr d hlc K rfl]
  refine Finset.sum_congr rfl fun i _ => ?_
  rw [lhsIdx_eq d hlc hln hlb j i, rhsIdx_eq d hlc hrc hln hrn hlb hrb j i]
  rfl

/-- A matrix unit's product into a zero accumulator, at the extended reals, read by coordinates. -/
theorem matmul_zero_apply {φ₁ φ₂ : FTy} (prec : Option ContractPrecision)
    (hlc : d.lhsContracting = [1]) (hrc : d.rhsContracting = [0]) (hln : d.lhsNonContracting = [0])
    (hrn : d.rhsNonContracting = [1]) (hlb : d.lhsBatch = []) (hrb : d.rhsBatch = [])
    (a : FVec Ideal ⟨2, ![M, K]⟩ φ₁) (b : FVec Ideal ⟨2, ![K, N]⟩ φ₂) (j : (⟨2, ![M, N]⟩ : Shape).Idx) :
    FloatOps.matmul d prec a b (constant (⟨2, ![M, N]⟩ : Shape) .f32 0x00000000#32) j
      = ∑ i : Fin K, a (ix2 (j 0) i) * b (ix2 i (j 1)) :=
  (Ideal.matmul_constant_zero_apply d prec a b j).trans (sum_rows_cols d hlc hrc hln hrn hlb hrb a b j)

/-- The host's general product, at the extended reals, read by coordinates. -/
theorem dotGeneral_apply {φ₁ φ₂ : FTy} (prec : Option ContractPrecision) (sched : HostSchedule)
    (hlc : d.lhsContracting = [1]) (hrc : d.rhsContracting = [0]) (hln : d.lhsNonContracting = [0])
    (hrn : d.rhsNonContracting = [1]) (hlb : d.lhsBatch = []) (hrb : d.rhsBatch = [])
    (a : FVec Ideal ⟨2, ![M, K]⟩ φ₁) (b : FVec Ideal ⟨2, ![K, N]⟩ φ₂) (j : (⟨2, ![M, N]⟩ : Shape).Idx) :
    FloatOps.dotGeneral d prec sched a b j = ∑ i : Fin K, a (ix2 (j 0) i) * b (ix2 i (j 1)) :=
  (Ideal.dotGeneral_apply d prec sched a b j).trans (sum_rows_cols d hlc hrc hln hrn hlb hrb a b j)

end Cert.Lib.PlainContraction

end
-- ==== Proof.LibColumns.lean ====
/-
  Column vectors and single rows, broadcast and reshaped, read by coordinates.

  A per-row scale is carried as an `[a, 1]` column and a per-column bias as a `[1, b]` row; both are spread over an
  `[a, b]` array either by a vector broadcast or by the host's `broadcast_in_dim`, and a length-`a` vector becomes the
  column by a reshape or by `broadcast_in_dim` along axis 0. Each lemma says which entry of the operand the result
  reads at `(p, c)`.
-/
import Idealize.ShloMosaic.Lib.Pipeline.Value
import Idealize.ShloMosaic.Lib.ValueIdx

noncomputable section

namespace Cert.Lib.Columns

open Idealize.ShloMosaic Idealize.ShloMosaic.ValueIdx

variable {α : Type}

/-- An `[a, 1]` column broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of an `[a, 1]` column along both axes to `[a, b]` reads, at `(p, c)`, the entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[1, b]` row along both axes to `[a, b]` reads, at `(p, c)`, the row's entry of column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a length-`a` vector along axis 0 to an `[a, 1]` column reads, at `(p, u)`, entry `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of a length-`b` vector along axis 1 to a `[1, b]` row reads, at `(u, c)`, entry `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A length-`a` vector reshaped to an `[a, 1]` column reads, at `(p, u)`, entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of a scalar reads the scalar everywhere. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

end Cert.Lib.Columns

end
-- ==== Proof.RefLayers.lean ====
/-
  The reference's two dense layers are the coordinate functions `Cert.Gcn.proj` and `Cert.Gcn.post`.
-/
import proofs.«161414_j37151467111211_1_alg».proof.ReferenceIdeal
import Idealize.ShloMosaic.PureOps.Ideal.Laws
import Idealize.ShloMosaic.Lib.ValueLayout
import proofs.«161414_j37151467111211_1_alg».proof.Proof.Spec
import proofs.«161414_j37151467111211_1_alg».proof.Proof.LibPlainContraction
import proofs.«161414_j37151467111211_1_alg».proof.Proof.LibColumns

noncomputable section

open scoped BigOperators

namespace Cert.ReferenceIdeal.Layers

open Cert.ReferenceIdeal Idealize.ShloMosaic Idealize.ShloMosaic.ValueIdx

variable [Facts]
open Facts₀ Facts

/-- A length-`100000` vector spread first to a column and then over `128` columns reads, at `(p, q)`, what its
    reshape to a column reads at `(p, 0)`: entry `p`. -/
private theorem scale_apply (s : FVec Ideal S100000 .f32) (h : S100000.ShapeCasts S100000x1)
    (p : Fin 100000) (q : Fin 128) :
    broadcastInDim S100000x128 ![0, 1] bcast_S100000x1_S100000x128_0_1
        (broadcastInDim S100000x1 ![0] bcast_S100000_S100000x1_0 s) (ix2 p q)
      = shapeCast S100000x1 s h (ix2 p (0 : Fin 1)) :=
  (Cert.Lib.Columns.broadcastInDim_a1_ab_apply _ bcast_S100000x1_S100000x128_0_1 p q).trans
    ((Cert.Lib.Columns.broadcastInDim_a_a1_apply s bcast_S100000_S100000x1_0 p 0).trans
      (Cert.Lib.Columns.shapeCast_a_a1_apply s h p 0).symm)

/-- The hidden bias spread first to a row and then over all rows reads, at `(p, k)`, what its reshape to a row reads
    at `(0, k)`: entry `k`. -/
private theorem bias1_apply (b1 : FVec Ideal S128 .f32) (h1 : S128.ShapeCasts S1x128) (p : Fin 100000) (k : Fin 128) :
    broadcastInDim S100000x128 ![0, 1] bcast_S1x128_S100000x128_0_1
        (broadcastInDim S1x128 ![1] bcast_S128_S1x128_1 b1) (ix2 p k)
      = shapeCast S1x128 b1 h1 (ix2 (0 : Fin 1) k) :=
  (Cert.Lib.Columns.broadcastInDim_1b_ab_apply _ bcast_S1x128_S100000x128_0_1 p k).trans
    ((Cert.Lib.Columns.broadcastInDim_b_1b_apply b1 bcast_S128_S1x128_1 0 k).trans
      (shapeCast_a_1a_apply b1 h1 0 k).symm)

/-- The output bias likewise, over `8` columns. -/
private theorem bias2_apply (b2 : FVec Ideal S8 .f32) (h2 : S8.ShapeCasts S1x8) (p : Fin 100000) (c : Fin 8) :
    broadcastInDim S100000x8 ![0, 1] bcast_S1x8_S100000x8_0_1
        (broadcastInDim S1x8 ![1] bcast_S8_S1x8_1 b2) (ix2 p c)
      = shapeCast S1x8 b2 h2 (ix2 (0 : Fin 1) c) :=
  (Cert.Lib.Columns.broadcastInDim_1b_ab_apply _ bcast_S1x8_S100000x8_0_1 p c).trans
    ((Cert.Lib.Columns.broadcastInDim_b_1b_apply b2 bcast_S8_S1x8_1 0 c).trans
      (shapeCast_a_1a_apply b2 h2 0 c).symm)

/-- The rectified, biased, normalised aggregate at `(p, k)` is the hidden activation of row `p`, feature `k`. -/
private theorem hidden_apply (a : FVec Ideal S100000x128 .f32) (s : FVec Ideal S100000 .f32) (b1 : FVec Ideal S128 .f32)
    (h : S100000.ShapeCasts S100000x1) (h1 : S128.ShapeCasts S1x128) (p : Fin 100000) (k : Fin 128) :
    maximumf
        (addf
          (mulf a (broadcastInDim S100000x128 ![0, 1] bcast_S100000x1_S100000x128_0_1 (broadcastInDim S100000x1 ![0] bcast_S100000_S100000x1_0 s)))
          (broadcastInDim S100000x128 ![0, 1] bcast_S1x128_S100000x128_0_1 (broadcastInDim S1x128 ![1] bcast_S128_S1x128_1 b1)))
        (broadcastInDim S100000x128 ![] bcast_S_S100000x128 (constant (F := Ideal) S_ .f32 0x00000000#32)) (ix2 p k)
      = Cert.Gcn.hidden a (shapeCast S100000x1 s h) (shapeCast S1x128 b1 h1) p k := by
  show max (a (ix2 p k) * _ + _) _ = _
  rw [scale_apply s h p k, bias1_apply b1 h1 p k,
    Cert.Lib.Columns.broadcastInDim_scalar_apply _ bcast_S_S100000x128 (ix2 p k)]
  rfl

/-- The host's product `x w` times the source normalisation spread over the columns is `proj`, the normalisation
    carried as a column. -/
theorem proj_eq (x : FVec Ideal S100000x256 .f32) (w : FVec Ideal S256x128 .f32) (s : FVec Ideal S100000 .f32)
    (h : S100000.ShapeCasts S100000x1) :
    mulf (Host.dotGeneral dot_S100000x256_S256x128_S100000x128_1_0_0_1_n_n none x w)
        (broadcastInDim S100000x128 ![0, 1] bcast_S100000x1_S100000x128_0_1 (broadcastInDim S100000x1 ![0] bcast_S100000_S100000x1_0 s))
      = Cert.Gcn.proj x w (shapeCast S100000x1 s h) := by
  funext i
  obtain ⟨p, q, rfl⟩ : ∃ (p : Fin 100000) (q : Fin 128), i = ix2 p q := ⟨i 0, i 1, eq_ix2 i⟩
  show Host.dotGeneral dot_S100000x256_S256x128_S100000x128_1_0_0_1_n_n none x w (ix2 p q) * _ = _
  rw [scale_apply s h p q]
  refine congrArg (· * shapeCast S100000x1 s h (ix2 p (0 : Fin 1))) ?_
  exact Cert.Lib.PlainContraction.dotGeneral_apply dot_S100000x256_S256x128_S100000x128_1_0_0_1_n_n none _
    rfl rfl rfl rfl rfl rfl x w (ix2 p q)

/-- The host's output layer over an aggregate `a` is `post`, the normalisation and the two biases carried as a column
    and two rows. -/
theorem post_eq (a : FVec Ideal S100000x128 .f32) (s : FVec Ideal S100000 .f32) (b1 : FVec Ideal S128 .f32)
    (w : FVec Ideal S128x8 .f32) (b2 : FVec Ideal S8 .f32)
    (h : S100000.ShapeCasts S100000x1) (h1 : S128.ShapeCasts S1x128) (h2 : S8.ShapeCasts S1x8) :
    addf (Host.dotGeneral dot_S100000x128_S128x8_S100000x8_1_0_0_1_n_n none
          (maximumf
            (addf
              (mulf a (broadcastInDim S100000x128 ![0, 1] bcast_S100000x1_S100000x128_0_1 (broadcastInDim S100000x1 ![0] bcast_S100000_S100000x1_0 s)))
              (broadcastInDim S100000x128 ![0, 1] bcast_S1x128_S100000x128_0_1 (broadcastInDim S1x128 ![1] bcast_S128_S1x128_1 b1)))
            (broadcastInDim S100000x128 ![] bcast_S_S100000x128 (constant (F := Ideal) S_ .f32 0x00000000#32)))
          w)
        (broadcastInDim S100000x8 ![0, 1] bcast_S1x8_S100000x8_0_1 (broadcastInDim S1x8 ![1] bcast_S8_S1x8_1 b2))
      = Cert.Gcn.post a (shapeCast S100000x1 s h) (shapeCast S1x128 b1 h1) w (shapeCast S1x8 b2 h2) := by
  funext i
  obtain ⟨p, c, rfl⟩ : ∃ (p : Fin 100000) (c : Fin 8), i = ix2 p c := ⟨i 0, i 1, eq_ix2 i⟩
  show Host.dotGeneral dot_S100000x128_S128x8_S100000x8_1_0_0_1_n_n none _ w (ix2 p c) + _ = _
  rw [bias2_apply b2 h2 p c]
  refine congrArg (· + shapeCast S1x8 b2 h2 (ix2 (0 : Fin 1) c)) ?_
  refine (Cert.Lib.PlainContraction.dotGeneral_apply dot_S100000x128_S128x8_S100000x8_1_0_0_1_n_n none _
    rfl rfl rfl rfl rfl rfl _ w (ix2 p c)).trans ?_
  exact Finset.sum_congr rfl fun k _ => congrArg (· * w (ix2 k c)) (hidden_apply a s b1 h h1 p k)

end Cert.ReferenceIdeal.Layers

end
-- ==== Proof.Region0.lean ====
/-
  The first kernel region's output array, whole: `Cert.Gcn.proj` of the arrays the region is entered with.

  Each of the twenty grid points loads a block of 5000 rows of the features, all of the first weights and the block's
  rows of the source normalisation column, and stores the block's rows of `(x w)(r, c) · s (r, 0)`. The blocks tile the
  100000 rows, so the array ends holding that function everywhere.
-/
import proofs.«161414_j37151467111211_1_alg».proof.Proof.Gen.KernelIdeal.Frame
import Idealize.ShloMosaic.Lib.Pipeline.Value
import Idealize.ShloMosaic.PureOps.Ideal.Laws
import proofs.«161414_j37151467111211_1_alg».proof.Proof.Spec
import proofs.«161414_j37151467111211_1_alg».proof.Proof.LibPlainContraction
import proofs.«161414_j37151467111211_1_alg».proof.Proof.LibColumns

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.ShloMosaic.Pipeline (Dat Cfg Window)

/-- The body's stored value at row `p`, column `q` of the block: the row of the feature block against the column of the
    weights, times the row's normalisation. -/
theorem pay_at (x0 : Vec Ideal S5000x256 .f32) (x1 : Vec Ideal S256x128 .f32) (x2 : Vec Ideal S5000x1 .f32)
    (p : Fin 5000) (q : Fin 128) :
    k0_pay1 x0 x1 x2 (ix2 p q) = (∑ k : Fin 256, x0 (ix2 p k) * x1 (ix2 k q)) * x2 (ix2 p (0 : Fin 1)) := by
  unfold k0_pay1
  refine (mulf_apply _ _ _).trans ?_
  refine congrArg₂ (· * ·) ?_ ?_
  · exact Cert.Lib.PlainContraction.matmul_zero_apply dot_S5000x256_S256x128_S5000x128_1_0_0_1_n_n none rfl rfl rfl rfl rfl rfl _ _ (ix2 p q)
  · rw [shapeCast_self]
    exact Cert.Lib.Columns.broadcastTo_a1_ab_apply x2 _ p q

/-- `proj` at row `r`, column `q`. -/
theorem proj_at (x : (⟨2, ![100000, 256]⟩ : Shape).Idx → EReal) (w : (⟨2, ![256, 128]⟩ : Shape).Idx → EReal)
    (s : (⟨2, ![100000, 1]⟩ : Shape).Idx → EReal) (r : Fin 100000) (q : Fin 128) :
    Cert.Gcn.proj x w s (ix2 r q) = (∑ k : Fin 256, x (ix2 r k) * w (ix2 k q)) * s (ix2 r (0 : Fin 1)) := rfl

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the grid: point `t` takes block row `t` of the features, of the normalisation column
    and of the output, and the one block of the weights. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of point `t`'s block is row `5000 t + p` of the array. -/
abbrev row (t : Fin cfg0.N) (p : Fin 5000) : Fin 100000 :=
  ⟨t.val * 5000 + p.val, by have := t.isLt; have h : cfg0.N = 20 := N_0; omega⟩

theorem features_block (c : Dev nD) (t : Fin cfg0.N) (p : Fin 5000) (k : Fin 256) :
    iblk0 V c 0 t (ix2 p k) = V c main_arg0 (ix2 (row t p) k) := by
  unfold iblk0
  show V c main_arg0 (((cfg0.win 0).blk t).view.emb (ix2 p k)) = _
  refine congrArg (V c main_arg0) (funext fun a => Fin.ext ?_)
  obtain ⟨e0, e1, -⟩ := index_maps t
  match a with
  | ⟨0, _⟩ => show win0_0.index t (0 : Fin 2) * 5000 + 1 * p.val = t.val * 5000 + p.val; omega
  | ⟨1, _⟩ => show win0_0.index t (1 : Fin 2) * 256 + 1 * k.val = k.val; omega

theorem weights_block (c : Dev nD) (t : Fin cfg0.N) (k : Fin 256) (q : Fin 128) :
    iblk0 V c 1 t (ix2 k q) = V c main_arg3 (ix2 k q) := by
  unfold iblk0
  show V c main_arg3 (((cfg0.win 1).blk t).view.emb (ix2 k q)) = _
  refine congrArg (V c main_arg3) (funext fun a => Fin.ext ?_)
  obtain ⟨-, -, e0, e1, -⟩ := index_maps t
  match a with
  | ⟨0, _⟩ => show win0_1.index t (0 : Fin 2) * 256 + 1 * k.val = k.val; omega
  | ⟨1, _⟩ => show win0_1.index t (1 : Fin 2) * 128 + 1 * q.val = q.val; omega

theorem norm_block (c : Dev nD) (t : Fin cfg0.N) (p : Fin 5000) :
    iblk0 V c 2 t (ix2 p (0 : Fin 1)) = V c main_v19 (ix2 (row t p) (0 : Fin 1)) := by
  unfold iblk0
  show V c main_v19 (((cfg0.win 2).blk t).view.emb (ix2 p (0 : Fin 1))) = _
  refine congrArg (V c main_v19) (funext fun a => Fin.ext ?_)
  obtain ⟨-, -, -, -, e0, e1, -⟩ := index_maps t
  match a with
  | ⟨0, _⟩ => show win0_2.index t (0 : Fin 2) * 5000 + 1 * p.val = t.val * 5000 + p.val; omega
  | ⟨1, _⟩ => show win0_2.index t (1 : Fin 2) * 1 + 1 * 0 = 0; omega

/-- What point `t` writes back is its block of rows of `proj` of the arrays as the region found them. -/
theorem flushed_eq (c : Dev nD) (t : Fin cfg0.N) :
    (dat0 V c).flushed 3 t
      = ((cfg0.win 3).blk t).view.read (Elt Ideal) (Cert.Gcn.proj (V c main_arg0) (V c main_arg3) (V c main_v19)) := by
  show (cfg0.win 3).cut (grid0.coords t) ((dat0 V c).after 3 t) = _
  rw [after0_3]
  unfold out0_3
  rw [View.canon_unit_zero offsets_zero]
  simp only [View.ld_unit_zero (S := S5000x256) offsets_zero, View.ld_unit_zero (S := S256x128) offsets_zero,
    View.ld_unit_zero (S := S5000x1) offsets_zero]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
    = Cert.Gcn.proj (V c main_arg0) (V c main_arg3) (V c main_v19) (((cfg0.win 3).blk t).view.emb (ix2 p q))
  have hemb : ((cfg0.win 3).blk t).view.emb (ix2 p q) = ix2 (row t p) q := funext fun a => Fin.ext (by
    obtain ⟨-, -, -, -, -, -, e0, e1⟩ := index_maps t
    match a with
    | ⟨0, _⟩ => show win0_3.index t (0 : Fin 2) * 5000 + 1 * p.val = t.val * 5000 + p.val; omega
    | ⟨1, _⟩ => show win0_3.index t (1 : Fin 2) * 128 + 1 * q.val = q.val; omega)
  rw [hemb]
  refine (pay_at _ _ _ p q).trans ?_
  refine Eq.trans ?_ (proj_at _ _ _ (row t p) q).symm
  exact congrArg₂ (· * ·)
    (Finset.sum_congr rfl fun k _ => congrArg₂ (· * ·) (features_block V c t p k) (weights_block V c t k q))
    (norm_block V c t p)

/-- An index of the output array is in point `t`'s block exactly when its row is one of the block's 5000. -/
theorem mem_block (t : Fin cfg0.N) (i : S100000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v20).slice (win0_3.rect t)).set ↔ _
  rw [View.set_slice_whole, Rect.mem_set_unit]
  exact Iff.rfl

/-- Every row belongs to some point's block: row `r` to point `r / 5000`. -/
theorem covered (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 20 := N_0
  let t : Fin cfg0.N := ⟨(i 0).val / 5000, by omega⟩
  obtain ⟨-, -, -, -, -, -, e0, e1⟩ := index_maps t
  refine ⟨t, flush0_3 t, ?_⟩
  rw [mem_block]
  intro a
  match a with
  | ⟨0, _⟩ =>
    show win0_3.index t (0 : Fin 2) * 5000 ≤ (i 0).val ∧ (i 0).val < win0_3.index t (0 : Fin 2) * 5000 + 5000
    have ht : t.val = (i 0).val / 5000 := rfl
    omega
  | ⟨1, _⟩ =>
    show win0_3.index t (1 : Fin 2) * 128 ≤ (i 1).val ∧ (i 1).val < win0_3.index t (1 : Fin 2) * 128 + 128
    omega

/-- After the region's twenty points the output array holds `proj` of the features, the first weights and the source
    normalisation column, as the region found them. -/
theorem arr_eq (c : Dev nD) :
    (dat0 V c).arrAt 3 cfg0.N = Cert.Gcn.proj (V c main_arg0) (V c main_arg3) (V c main_v19) :=
  (dat0 V c).arrAt_eq_of_cover 3 _ (fun t _ => flushed_eq V c t) covered

end Cert.KernelIdeal.Region0

end
-- ==== Proof.Region1.lean ====
/-
  The second kernel region's output array, whole: `Cert.Gcn.post` of the arrays the region is entered with.

  Each of the twenty grid points loads a block of 5000 rows of the aggregate and of the destination normalisation column,
  the hidden bias row, all of the output weights and the output bias row, and stores the block's rows of
  `∑ k, max (a (r, k) · s (r, 0) + b1 (0, k)) 0 · w (k, c) + b2 (0, c)`. The blocks tile the 100000 rows, so the array
  ends holding that function everywhere.
-/
import proofs.«161414_j37151467111211_1_alg».proof.Proof.Gen.KernelIdeal.Frame
import Idealize.ShloMosaic.Lib.Pipeline.Value
import Idealize.ShloMosaic.Lib.ValueLayout
import Idealize.ShloMosaic.PureOps.Ideal.Laws
import proofs.«161414_j37151467111211_1_alg».proof.Proof.Spec
import proofs.«161414_j37151467111211_1_alg».proof.Proof.LibPlainContraction
import proofs.«161414_j37151467111211_1_alg».proof.Proof.LibColumns

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The body's stored value at row `p`, column `q` of a block: the rectified, normalised and biased row of the
    aggregate against column `q` of the output weights, plus the output bias. On the extended reals the roundings to the
    narrow format are the identity, as are the casts to the same shape, and the product into the zero accumulator is the
    sum over the 128 hidden features. -/
theorem payload_apply (x0 : Vec Ideal S5000x128 .f32) (x1 : Vec Ideal S5000x1 .f32) (x2 : Vec Ideal S1x128 .f32)
    (x3 : Vec Ideal S128x8 .f32) (x4 : Vec Ideal S1x8 .f32) (p : Fin 5000) (q : Fin 8) :
    k1_pay1 x0 x1 x2 x3 x4 (ix2 p q)
      = (∑ k : Fin 128, max (x0 (ix2 p k) * x1 (ix2 p (0 : Fin 1)) + x2 (ix2 (0 : Fin 1) k)) (Ideal.ofBits .f32 0x00000000#32)
            * x3 (ix2 k q)) + x4 (ix2 (0 : Fin 1) q) := by
  unfold k1_pay1
  simp only [shapeCast_self]
  rw [addf_apply, broadcastTo_1b_ab_apply]
  simp only [matmul]
  rw [Cert.Lib.PlainContraction.matmul_zero_apply dot_S5000x128_S128x8_S5000x8_1_0_0_1_n_n none rfl rfl rfl rfl rfl rfl _ _ (ix2 p q)]
  refine congrArg (· + x4 (ix2 (0 : Fin 1) q)) (Finset.sum_congr rfl fun k _ => ?_)
  have hs : broadcastTo S5000x128 x1 broadcasts_S5000x1_S5000x128 (ix2 p k) = x1 (ix2 p (0 : Fin 1)) :=
    Cert.Lib.Columns.broadcastTo_a1_ab_apply x1 _ p k
  have hb : broadcastTo S5000x128 x2 broadcasts_S1x128_S5000x128 (ix2 p k) = x2 (ix2 (0 : Fin 1) k) :=
    broadcastTo_1b_ab_apply x2 _ p k
  show max (x0 (ix2 p k) * broadcastTo S5000x128 x1 broadcasts_S5000x1_S5000x128 (ix2 p k)
          + broadcastTo S5000x128 x2 broadcasts_S1x128_S5000x128 (ix2 p k)) (Ideal.ofBits .f32 0x00000000#32) * x3 (ix2 k q) = _
  rw [hs, hb]

/-- `post` at row `r`, column `q`. -/
theorem post_at (a : (⟨2, ![100000, 128]⟩ : Shape).Idx → EReal) (s : (⟨2, ![100000, 1]⟩ : Shape).Idx → EReal)
    (b1 : (⟨2, ![1, 128]⟩ : Shape).Idx → EReal) (w : (⟨2, ![128, 8]⟩ : Shape).Idx → EReal)
    (b2 : (⟨2, ![1, 8]⟩ : Shape).Idx → EReal) (r : Fin 100000) (q : Fin 8) :
    Cert.Gcn.post a s b1 w b2 (ix2 r q)
      = (∑ k : Fin 128, max (a (ix2 r k) * s (ix2 r (0 : Fin 1)) + b1 (ix2 (0 : Fin 1) k)) (Ideal.ofBits .f32 0x00000000#32)
            * w (ix2 k q)) + b2 (ix2 (0 : Fin 1) q) := rfl

theorem offsets_zero : (![0, 0] : Fin 2 → Nat) = fun _ => 0 := funext fun a => by fin_cases a <;> rfl

/-- The printed index maps over the grid: point `t` takes block row `t` of the aggregate, of the normalisation column
    and of the output, and the one block of each bias row and of the weights. -/
theorem index_maps : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `p` of point `t`'s block is row `5000 t + p` of the array. -/
abbrev row (t : Fin cfg1.N) (p : Fin 5000) : Fin 100000 :=
  ⟨t.val * 5000 + p.val, by have := t.isLt; have h : cfg1.N = 20 := N_1; omega⟩

theorem aggregate_block (c : Dev nD) (t : Fin cfg1.N) (p : Fin 5000) (k : Fin 128) :
    iblk1 V c 0 t (ix2 p k) = V c main_v30 (ix2 (row t p) k) := by
  unfold iblk1
  show V c main_v30 (((cfg1.win 0).blk t).view.emb (ix2 p k)) = _
  refine congrArg (V c main_v30) (funext fun a => Fin.ext ?_)
  obtain ⟨e0, e1, -⟩ := index_maps t
  match a with
  | ⟨0, _⟩ => show win1_0.index t (0 : Fin 2) * 5000 + 1 * p.val = t.val * 5000 + p.val; omega
  | ⟨1, _⟩ => show win1_0.index t (1 : Fin 2) * 128 + 1 * k.val = k.val; omega

theorem norm_block (c : Dev nD) (t : Fin cfg1.N) (p : Fin 5000) :
    iblk1 V c 1 t (ix2 p (0 : Fin 1)) = V c main_v31 (ix2 (row t p) (0 : Fin 1)) := by
  unfold iblk1
  show V c main_v31 (((cfg1.win 1).blk t).view.emb (ix2 p (0 : Fin 1))) = _
  refine congrArg (V c main_v31) (funext fun a => Fin.ext ?_)
  obtain ⟨-, -, e0, e1, -⟩ := index_maps t
  match a with
  | ⟨0, _⟩ => show win1_1.index t (0 : Fin 2) * 5000 + 1 * p.val = t.val * 5000 + p.val; omega
  | ⟨1, _⟩ => show win1_1.index t (1 : Fin 2) * 1 + 1 * 0 = 0; omega

theorem hidden_bias_block (c : Dev nD) (t : Fin cfg1.N) (k : Fin 128) :
    iblk1 V c 2 t (ix2 (0 : Fin 1) k) = V c main_v32 (ix2 (0 : Fin 1) k) := by
  unfold iblk1
  show V c main_v32 (((cfg1.win 2).blk t).view.emb (ix2 (0 : Fin 1) k)) = _
  refine congrArg (V c main_v32) (funext fun a => Fin.ext ?_)
  obtain ⟨-, -, -, -, e0, e1, -⟩ := index_maps t
  match a with
  | ⟨0, _⟩ => show win1_2.index t (0 : Fin 2) * 1 + 1 * 0 = 0; omega
  | ⟨1, _⟩ => show win1_2.index t (1 : Fin 2) * 128 + 1 * k.val = k.val; omega

theorem weights_block (c : Dev nD) (t : Fin cfg1.N) (k : Fin 128) (q : Fin 8) :
    iblk1 V c 3 t (ix2 k q) = V c main_arg5 (ix2 k q) := by
  unfold iblk1
  show V c main_arg5 (((cfg1.win 3).blk t).view.emb (ix2 k q)) = _
  refine congrArg (V c main_arg5) (funext fun a => Fin.ext ?_)
  obtain ⟨-, -, -, -, -, -, e0, e1, -⟩ := index_maps t
  match a with
  | ⟨0, _⟩ => show win1_3.index t (0 : Fin 2) * 128 + 1 * k.val = k.val; omega
  | ⟨1, _⟩ => show win1_3.index t (1 : Fin 2) * 8 + 1 * q.val = q.val; omega

theorem output_bias_block (c : Dev nD) (t : Fin cfg1.N) (q : Fin 8) :
    iblk1 V c 4 t (ix2 (0 : Fin 1) q) = V c main_v33 (ix2 (0 : Fin 1) q) := by
  unfold iblk1
  show V c main_v33 (((cfg1.win 4).blk t).view.emb (ix2 (0 : Fin 1) q)) = _
  refine congrArg (V c main_v33) (funext fun a => Fin.ext ?_)
  obtain ⟨-, -, -, -, -, -, -, -, e0, e1, -⟩ := index_maps t
  match a with
  | ⟨0, _⟩ => show win1_4.index t (0 : Fin 2) * 1 + 1 * 0 = 0; omega
  | ⟨1, _⟩ => show win1_4.index t (1 : Fin 2) * 8 + 1 * q.val = q.val; omega

/-- What point `t` writes back is its block of rows of `post` of the arrays as the region found them. -/
theorem flushed_eq (c : Dev nD) (t : Fin cfg1.N) :
    (dat1 V c).flushed 5 t
      = ((cfg1.win 5).blk t).view.read (Elt Ideal)
          (Cert.Gcn.post (V c main_v30) (V c main_v31) (V c main_v32) (V c main_arg5) (V c main_v33)) := by
  show (cfg1.win 5).cut (grid1.coords t) ((dat1 V c).after 5 t) = _
  rw [after1_5]
  unfold out1_5
  rw [View.canon_unit_zero offsets_zero]
  simp only [View.ld_unit_zero (S := S5000x128) offsets_zero, View.ld_unit_zero (S := S5000x1) offsets_zero,
    View.ld_unit_zero (S := S1x128) offsets_zero, View.ld_unit_zero (S := S128x8) offsets_zero,
    View.ld_unit_zero (S := S1x8) offsets_zero]
  funext j
  obtain ⟨p, q, rfl⟩ : ∃ (p : Fin 5000) (q : Fin 8), j = ix2 p q := ⟨j 0, j 1, eq_ix2 j⟩
  show k1_pay1 (iblk1 V c 0 t) (iblk1 V c 1 t) (iblk1 V c 2 t) (iblk1 V c 3 t) (iblk1 V c 4 t) (ix2 p q)
    = Cert.Gcn.post (V c main_v30) (V c main_v31) (V c main_v32) (V c main_arg5) (V c main_v33)
        (((cfg1.win 5).blk t).view.emb (ix2 p q))
  have hemb : ((cfg1.win 5).blk t).view.emb (ix2 p q) = ix2 (row t p) q := funext fun a => Fin.ext (by
    obtain ⟨-, -, -, -, -, -, -, -, -, -, e0, e1⟩ := index_maps t
    match a with
    | ⟨0, _⟩ => show win1_5.index t (0 : Fin 2) * 5000 + 1 * p.val = t.val * 5000 + p.val; omega
    | ⟨1, _⟩ => show win1_5.index t (1 : Fin 2) * 8 + 1 * q.val = q.val; omega)
  rw [hemb]
  refine (payload_apply _ _ _ _ _ p q).trans ?_
  refine Eq.trans ?_ (post_at _ _ _ _ _ (row t p) q).symm
  exact congrArg₂ (· + ·)
    (Finset.sum_congr rfl fun k _ => congrArg₂ (· * ·)
      (congrArg₂ max
        (congrArg₂ (· + ·) (congrArg₂ (· * ·) (aggregate_block V c t p k) (norm_block V c t p)) (hidden_bias_block V c t k))
        rfl)
      (weights_block V c t k q))
    (output_bias_block V c t q)

/-- An index of the output array is in point `t`'s block exactly when its row is one of the block's 5000. -/
theorem mem_block (t : Fin cfg1.N) (i : S100000x8.Idx) :
    i ∈ ((cfg1.win 5).blk t).view.set ↔ ∀ a : Fin 2, win1_5.index t a * S5000x8.size a ≤ (i a).val ∧ (i a).val < win1_5.index t a * S5000x8.size a + S5000x8.size a := by
  show i ∈ ((View.whole main_v34).slice (win1_5.rect t)).set ↔ _
  rw [View.set_slice_whole, Rect.mem_set_unit]
  exact Iff.rfl

/-- Every row belongs to some point's block: row `r` to point `r / 5000`. -/
theorem covered (i : S100000x8.Idx) :
    ∃ t : Fin cfg1.N, (cfg1.win 5).flush t = true ∧ i ∈ ((cfg1.win 5).blk t).view.set := by
  have hi0 : (i 0).val < 100000 := (i 0).isLt
  have hi1 : (i 1).val < 8 := (i 1).isLt
  have hN : cfg1.N = 20 := N_1
  let t : Fin cfg1.N := ⟨(i 0).val / 5000, by omega⟩
  obtain ⟨-, -, -, -, -, -, -, -, -, -, e0, e1⟩ := index_maps t
  refine ⟨t, flush1_5 t, ?_⟩
  rw [mem_block]
  intro a
  match a with
  | ⟨0, _⟩ =>
    show win1_5.index t (0 : Fin 2) * 5000 ≤ (i 0).val ∧ (i 0).val < win1_5.index t (0 : Fin 2) * 5000 + 5000
    have ht : t.val = (i 0).val / 5000 := rfl
    omega
  | ⟨1, _⟩ =>
    show win1_5.index t (1 : Fin 2) * 8 ≤ (i 1).val ∧ (i 1).val < win1_5.index t (1 : Fin 2) * 8 + 8
    omega

/-- After the region's twenty points the output array holds `post` of the aggregate, the destination normalisation
    column, the hidden bias row, the output weights and the output bias row, as the region found them. -/
theorem arr_eq (c : Dev nD) :
    (dat1 V c).arrAt 5 cfg1.N
      = Cert.Gcn.post (V c main_v30) (V c main_v31) (V c main_v32) (V c main_arg5) (V c main_v33) :=
  (dat1 V c).arrAt_eq_of_cover 5 _ (fun t _ => flushed_eq V c t) covered

end Cert.KernelIdeal.Region1

end
-- ==== Proof.Glue.lean ====
/-
  The kernel program's host side read back: what each kernel region is entered with, and the result array as the
  reference's function of the arguments.

  Before the first region the host computes the two degree normalisations and reshapes the source one to a column;
  between the regions it gathers the first region's output rows at the edges' sources and scatter-adds them at the
  destinations, and reshapes the destination normalisation and the two biases; the second region's output array is
  the program's result.
-/
import proofs.«161414_j37151467111211_1_alg».proof.Proof.Gen.KernelIdeal.Frame
import proofs.«161414_j37151467111211_1_alg».proof.Proof.Gen.ReferenceIdeal
import Idealize.ShloMosaic.Lib.StableHlo.Run
import proofs.«161414_j37151467111211_1_alg».proof.Proof.HostChain
import proofs.«161414_j37151467111211_1_alg».proof.Proof.RefLayers
import proofs.«161414_j37151467111211_1_alg».proof.Proof.Region0
import proofs.«161414_j37151467111211_1_alg».proof.Proof.Region1

set_option maxRecDepth 16384

noncomputable section

namespace Cert.KernelIdeal.Glue

open Cert.KernelIdeal Cert.KernelIdeal.Gen Idealize.ShloMosaic Idealize.ShloMosaic.TcCoe Idealize.ShloMosaic.StableHlo
open Cert.ReferenceIdeal.Chain

variable {F : FTy → Type} [FloatOps F]
variable (m : (ℓ : Loc nD τ sig) → Buf (Elt F) ℓ) (ρ : Dev nD → PrngReg)

/-! ## The arrays the first region is entered with -/

theorem entry0_features (c : Dev nD) : W5 m ρ c (Proc.devRef .tc main_arg0) = m ((c : Thread nD τ).loc main_arg0) := by
  after_results_simp

theorem entry0_weights (c : Dev nD) : W5 m ρ c (Proc.devRef .tc main_arg3) = m ((c : Thread nD τ).loc main_arg3) := by
  after_results_simp

/-- The column the first region scales by is the source normalisation, reshaped. -/
theorem entry0_norm (c : Dev nD) :
    W5 m ρ c (Proc.devRef .tc main_v19)
      = shapeCast S100000x1 (norm (m ((c : Thread nD τ).loc main_arg1))) shapeCasts_S100000_S100000x1 := by
  after_results_simp
  rfl

/-! ## The arrays the second region is entered with -/

/-- The aggregate is the shared gather and scatter-add of the first region's output array. -/
theorem entry1_aggregate (c : Dev nD) :
    W7 m ρ c (Proc.devRef .tc main_v30)
      = aggregate (W6 m ρ c (Proc.devRef .tc main_v20)) (m ((c : Thread nD τ).loc main_arg1)) (m ((c : Thread nD τ).loc main_arg2)) := by
  after_results_simp
  rw [W6_of_ne m ρ c main_arg1 (by decide), W6_of_ne m ρ c main_arg2 (by decide)]
  after_results_simp
  rfl

/-- The column the second region scales by is the destination normalisation, reshaped. -/
theorem entry1_norm (c : Dev nD) :
    W7 m ρ c (Proc.devRef .tc main_v31)
      = shapeCast S100000x1 (norm (m ((c : Thread nD τ).loc main_arg2))) shapeCasts_S100000_S100000x1 := by
  after_results_simp
  rw [W6_of_ne m ρ c main_v18 (by decide)]
  after_results_simp
  rfl

theorem entry1_bias1 (c : Dev nD) :
    W7 m ρ c (Proc.devRef .tc main_v32) = shapeCast S1x128 (m ((c : Thread nD τ).loc main_arg4)) shapeCasts_S128_S1x128 := by
  after_results_simp
  rw [W6_of_ne m ρ c main_arg4 (by decide)]
  after_results_simp
  rfl

theorem entry1_weights (c : Dev nD) : W7 m ρ c (Proc.devRef .tc main_arg5) = m ((c : Thread nD τ).loc main_arg5) := by
  after_results_simp
  rw [W6_of_ne m ρ c main_arg5 (by decide)]
  after_results_simp

theorem entry1_bias2 (c : Dev nD) :
    W7 m ρ c (Proc.devRef .tc main_v33) = shapeCast S1x8 (m ((c : Thread nD τ).loc main_arg6)) shapeCasts_S8_S1x8 := by
  after_results_simp
  rw [W6_of_ne m ρ c main_arg6 (by decide)]
  after_results_simp
  rfl

/-! ## The kernel program's result array -/

section Result

variable (m : (ℓ : Loc nD τ sig) → Buf (Elt Ideal) ℓ) (ρ : Dev nD → PrngReg)

/-- At the extended reals the kernel program's result array, as its last boundary holds it, is the reference's
    function `out` of the launch contents of the seven arguments: the first region computes `proj`, which is the
    reference's scaled product; the aggregation is shared; the second region computes `post`, which is the reference's
    output layer. -/
theorem result (c : Dev nD) :
    W8 m ρ c (Proc.devRef .tc main_v34)
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) := by
  have h5 : W8 m ρ c (Proc.devRef .tc main_v34) = (dat1 (V7 m ρ) c).arrAt 5 cfg1.N := W8_arr m ρ c 5
  have h1 : (dat1 (V7 m ρ) c).arrAt 5 cfg1.N
      = Cert.Gcn.post (W7 m ρ c (Proc.devRef .tc main_v30)) (W7 m ρ c (Proc.devRef .tc main_v31))
          (W7 m ρ c (Proc.devRef .tc main_v32)) (W7 m ρ c (Proc.devRef .tc main_arg5)) (W7 m ρ c (Proc.devRef .tc main_v33)) :=
    Cert.KernelIdeal.Region1.arr_eq (V7 m ρ) c
  have h3 : W6 m ρ c (Proc.devRef .tc main_v20) = (dat0 (V5 m ρ) c).arrAt 3 cfg0.N := W6_arr m ρ c 3
  have h0 : (dat0 (V5 m ρ) c).arrAt 3 cfg0.N
      = Cert.Gcn.proj (W5 m ρ c (Proc.devRef .tc main_arg0)) (W5 m ρ c (Proc.devRef .tc main_arg3)) (W5 m ρ c (Proc.devRef .tc main_v19)) :=
    Cert.KernelIdeal.Region0.arr_eq (V5 m ρ) c
  rw [h5, h1, entry1_aggregate, entry1_norm, entry1_bias1, entry1_weights, entry1_bias2, h3, h0, entry0_features,
    entry0_weights, entry0_norm]
  unfold out
  rw [Cert.ReferenceIdeal.Layers.post_eq _ _ _ _ _ shapeCasts_S100000_S100000x1 shapeCasts_S128_S1x128 shapeCasts_S8_S1x8,
    Cert.ReferenceIdeal.Layers.proj_eq _ _ _ shapeCasts_S100000_S100000x1]

end Result

end Cert.KernelIdeal.Glue

end
-- ==== Proof.lean ====
/-
  A two-layer graph convolution with symmetric degree normalisation: the kernel program against its reference, over
  the extended reals.

  Both programs compute, for 100000 nodes and 1600000 edges, `out = max (A (x W1 · s) · d + b1) 0 · W2 + b2`, where
  `s` and `d` are the inverse square roots of the nodes' out- and in-degrees (zero at degree zero) and `A` sums, at
  every edge's destination, the row at its source. The host computes the degrees, the normalisations and `A` with the
  same operations in both programs. The kernel program computes `x W1 · s` and the layer after `A` in two kernel
  regions, each over twenty blocks of 5000 rows; a block's rows depend only on the same rows of the row-indexed
  operands and on all of the weights, and each matrix product contracts its whole inner axis inside one block, so the
  blocks tile the reference's whole-array functions exactly: no law beyond reading both sides by coordinates is used,
  and the inputs' finiteness is not needed.

  The three frames: the kernel programs' are the generated frame certificates; the reference's is its run with the
  result dropped. The ideal pass rewrote nothing, so the idealization claim is trivial. The equivalence: the kernel
  program's run with its result array named (`KernelRun.lean`) ends at the last boundary's contents, which `Glue.lean`
  proves to be the reference's function `out` of the arguments; the reference's run ends at that same term.
-/
import proofs.«161414_j37151467111211_1_alg».proof.Defs
import proofs.«161414_j37151467111211_1_alg».proof.Proof.Gen.Kernel
import proofs.«161414_j37151467111211_1_alg».proof.Proof.Gen.Kernel.Skeleton
import proofs.«161414_j37151467111211_1_alg».proof.Proof.Gen.Kernel.Launch
import proofs.«161414_j37151467111211_1_alg».proof.Proof.Gen.Kernel.Points
import proofs.«161414_j37151467111211_1_alg».proof.Proof.Gen.Kernel.Frame
import proofs.«161414_j37151467111211_1_alg».proof.Proof.Gen.KernelIdeal
import proofs.«161414_j37151467111211_1_alg».proof.Proof.Gen.KernelIdeal.Skeleton
import proofs.«161414_j37151467111211_1_alg».proof.Proof.Gen.KernelIdeal.Launch
import proofs.«161414_j37151467111211_1_alg».proof.Proof.Gen.KernelIdeal.Points
import proofs.«161414_j37151467111211_1_alg».proof.Proof.Gen.KernelIdeal.Frame
import proofs.«161414_j37151467111211_1_alg».proof.Proof.Gen.ReferenceIdeal
import proofs.«161414_j37151467111211_1_alg».proof.Proof.Gen.Pre_finite_inputs
import proofs.«161414_j37151467111211_1_alg».proof.Proof.KernelRun
import proofs.«161414_j37151467111211_1_alg».proof.Proof.RefRun
import proofs.«161414_j37151467111211_1_alg».proof.Proof.Glue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.ValueP.run (F := Ideal) m ρ)

/-- Both runs end with the result array at `out` of the arguments, which agree. -/
theorem algebraic : Cert.algebraic_KernelIdeal_ReferenceIdeal := by
  intro m ρ m' ρ' _ hagree
  refine ⟨fun c => Cert.KernelIdeal.Gen.W8 m ρ c (Proc.devRef .tc Cert.KernelIdeal.main_v34),
    Cert.KernelIdeal.GenP.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [(hagree c).1, (hagree c).2.1, (hagree c).2.2.1, (hagree c).2.2.2.1, (hagree c).2.2.2.2.1, (hagree c).2.2.2.2.2.1,
    (hagree c).2.2.2.2.2.2]
  exact (Cert.KernelIdeal.Glue.result m ρ c).symm

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
